-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1 : Shape := ⟨2, ![2048, 1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_arg5 : FVec F S2048x1 .f32) (main_arg6 : FVec F S2048x1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S2048x1 .f32 := Host.absf main_arg5
  let main_cst_8 : FVec F S_ .f32 := constant S_ .f32 0x7F800000#32
  let main_v25 : FVec F S2048x1 .f32 := broadcastInDim S2048x1 ![] bcast_S_S2048x1 main_cst_8
  let main_v26 : IVec S2048x1 1 := cmpf .olt main_v24 main_v25
  let main_c_9 : IVec S_ 1 := constantI S_ 1 1#1
  let main_v27 : IVec S_ 1 := (fun x v => Host.reduce IntOp.andi x v reducesTo_S2048x1_S_d0_1 h_S_) main_v26 main_c_9
  let main_v28 : IVec S_ 1 := andi main_v23 main_v27
  let main_v29 : FVec F S2048x1 .f32 := Host.absf main_arg6
  let main_cst_10 : FVec F S_ .f32 := constant S_ .f32 0x7F800000#32
  let main_v30 : FVec F S2048x1 .f32 := broadcastInDim S2048x1 ![] bcast_S_S2048x1 main_cst_10
  let main_v31 : IVec S2048x1 1 := cmpf .olt main_v29 main_v30
  let main_c_11 : IVec S_ 1 := constantI S_ 1 1#1
  let main_v32 : IVec S_ 1 := (fun x v => Host.reduce IntOp.andi x v reducesTo_S2048x1_S_d0_1 h_S_) main_v31 main_c_11
  let main_v33 : IVec S_ 1 := andi main_v28 main_v32
  main_v33

def fn {F : FTy → Type} [FloatOps F] (main_arg0 : FVec F S16384x2048 .f32) (main_arg1 : FVec F S2048x1 .f32) (main_arg2 : FVec F S2048x1 .f32) (main_arg3 : FVec F S2048x1 .f32) (main_arg4 : FVec F S2048x1 .f32) (main_arg5 : FVec F S2048x1 .f32) (main_arg6 : FVec F S2048x1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_arg5 main_arg6 main_v13 main_v16
-- ==== Kernel.lean ====
abbrev S16384x2048 : Shape := ⟨2, ![16384, 2048]⟩
abbrev S2048x1 : Shape := ⟨2, ![2048, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048x1_S1x2048 : S2048x1.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1 : Shape := ⟨2, ![2048, 1]⟩
abbrev S16384x1 : Shape := ⟨2, ![16384, 1]⟩
abbrev S2048 : Shape := ⟨1, ![2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S16384x1, .f32⟩
  | .hbm, ⟨8, _⟩ => ⟨S16384x2048, .f32⟩
  | .hbm, ⟨9, _⟩ => ⟨S16384x2048, .f32⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S16384x1_S16384x2048_0_1 : S16384x1.BroadcastsInDim S16384x2048 (![0, 1] : Fin 2 → Fin S16384x2048.rank)
  shapeCasts_S2048x1_S2048 : S2048x1.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x1_S16384x1_1_0_0_1_n_n_wf : DotDims.WF S16384x2048 S2048x1 S16384x1 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.CrossSpec.lean ====
/-
  A cross layer sends an array `y` of `R` rows and 2048 columns, a weight column `w` and a bias
  column `b` to the array whose entry at row `p`, column `q` is

      y[p,q] · (Σ_k y[p,k] · w[k]) + b[q] + y[p,q]

  (the product of each row with the scalar `yᵀw` of that row, plus the bias, plus the row itself).
  The stack applies three such layers in turn.  Everything here is over the extended reals, and
  nothing needs more than the definition: the entry at row `p` reads row `p` of `y` and nothing
  else, so a layer commutes with any selection of rows (`crossLayer_rows`) — which is why a kernel
  that treats the batch in blocks of rows computes the blocks of the whole-array result.
-/
import Idealize.ShloMosaic.PureOps.Ideal
import Idealize.ShloMosaic.Lib.ValueIdx

noncomputable section

namespace Cert.Cross

open Idealize.ShloMosaic Idealize.ShloMosaic.ValueIdx

/-- The index type of an array of `R` rows and 2048 columns. -/
abbrev Mat (R : Nat) : Type := (⟨2, ![R, 2048]⟩ : Shape).Idx

/-- One cross layer at row `p`, column `q`: `y[p,q] · (Σ_k y[p,k] · w[k]) + b[q] + y[p,q]`. -/
def crossAt {R : Nat} (y : Mat R → EReal) (w b : Fin 2048 → EReal) (p : Fin R) (q : Fin 2048) : EReal :=
  y (ix2 p q) * (∑ k : Fin 2048, y (ix2 p k) * w k) + b q + y (ix2 p q)

/-- One cross layer, as an array. -/
def crossLayer {R : Nat} (y : Mat R → EReal) (w b : Fin 2048 → EReal) : Mat R → EReal :=
  fun i => crossAt y w b (i 0) (i 1)

theorem crossLayer_ix2 {R : Nat} (y : Mat R → EReal) (w b : Fin 2048 → EReal) (p : Fin R) (q : Fin 2048) :
    crossLayer y w b (ix2 p q) = crossAt y w b p q := rfl

/-- The rows `f 0, f 1, …` of an array, as an array of their own. -/
def rowsOf {R R' : Nat} (f : Fin R' → Fin R) (y : Mat R → EReal) : Mat R' → EReal :=
  fun i => y (ix2 (f (i 0)) (i 1))

theorem rowsOf_ix2 {R R' : Nat} (f : Fin R' → Fin R) (y : Mat R → EReal) (p : Fin R') (q : Fin 2048) :
    rowsOf f y (ix2 p q) = y (ix2 (f p) q) := rfl

/-- A layer reads, for row `p` of its result, row `p` of its operand only: it commutes with a selection of rows. -/
theorem crossLayer_rows {R R' : Nat} (f : Fin R' → Fin R) (y : Mat R → EReal) (w b : Fin 2048 → EReal) :
    crossLayer (rowsOf f y) w b = rowsOf f (crossLayer y w b) := rfl

/-- A [2048, 1] column as a function of its row. -/
def col (w : (⟨2, ![2048, 1]⟩ : Shape).Idx → EReal) : Fin 2048 → EReal := fun k => w (ix2 k (0 : Fin 1))

/-- A [1, 2048] row as a function of its column. -/
def row (w : (⟨2, ![1, 2048]⟩ : Shape).Idx → EReal) : Fin 2048 → EReal := fun k => w (ix2 (0 : Fin 1) k)

/-- The stack of three cross layers. -/
def stack {R : Nat} (x : Mat R → EReal) (w1 b1 w2 b2 w3 b3 : Fin 2048 → EReal) : Mat R → EReal :=
  crossLayer (crossLayer (crossLayer x w1 b1) w2 b2) w3 b3

/-- The stack commutes with a selection of rows, layer by layer. -/
theorem stack_rows {R R' : Nat} (f : Fin R' → Fin R) (x : Mat R → EReal) (w1 b1 w2 b2 w3 b3 : Fin 2048 → EReal) :
    stack (rowsOf f x) w1 b1 w2 b2 w3 b3 = rowsOf f (stack x w1 b1 w2 b2 w3 b3) := by
  unfold stack
  rw [crossLayer_rows, crossLayer_rows, crossLayer_rows]

end Cert.Cross

end
-- ==== Proof.RefLayer.lean ====
/-
  The reference computes a cross layer as: the product `s = y · w` of the [16384, 2048] array with the
  [2048, 1] weight column (one number per row, the sum over `k` of `y[p,k] · w[k,0]`), broadcast along
  the columns; the bias column reshaped to a row and broadcast along the rows; then `y · s + b + y`.
  Read at row `p`, column `q` this is `crossAt y (col w) (col b) p q`.  The second and the third layer
  of the reference are the same operations applied to the previous layer's result.
-/
import proofs.«161878_j13322988552563_1_alg».proof.Proof.Gen.ReferenceIdeal.Read
import proofs.«161878_j13322988552563_1_alg».proof.Proof.CrossSpec

noncomputable section

namespace Cert.Cross.Ref

open Idealize.ShloMosaic Idealize.ShloMosaic.ValueIdx Cert.ReferenceIdeal Cert.ReferenceIdeal.Read Cert.Cross

/-- The left operand of the product at result row `p`, summation index `k`, is `y[p,k]`. -/
theorem lidx_eq (p : Fin 16384) (q : Fin 2048) (k : Fin 2048) :
    lidx_main_v0 (idx_main_v1 (ix2 p q)) k = ix2 p k :=
  funext fun a => match a with | ⟨0, _⟩ => rfl | ⟨1, _⟩ => rfl

/-- The right operand there is `w[k,0]`. -/
theorem ridx_eq (p : Fin 16384) (q : Fin 2048) (k : Fin 2048) :
    ridx_main_v0 (idx_main_v1 (ix2 p q)) k = ix2 k (0 : Fin 1) :=
  funext fun a => match a with | ⟨0, _⟩ => rfl | ⟨1, _⟩ => rfl

/-- The bias broadcast over the rows reads, at column `q`, `b[q,0]`. -/
theorem bidx_eq (p : Fin 16384) (q : Fin 2048) :
    idx_main_v3 (idx_main_v4 (idx_main_v5 (ix2 p q))) = ix2 q (0 : Fin 1) :=
  funext fun a => match a with
    | ⟨0, _⟩ => Fin.ext (Nat.div_one _)
    | ⟨1, _⟩ => rfl

/-- The reference's first layer, as a function of ANY three operands, is the cross layer. -/
theorem layer_eq (y : (⟨S16384x2048, .f32⟩ : BufTy).Contents (Elt Ideal)) (w b : (⟨S2048x1, .f32⟩ : BufTy).Contents (Elt Ideal)) :
    val_main_v7 (F := Ideal) y w b = crossLayer (R := 16384) y (col w) (col b) := by
  funext i
  obtain ⟨p, q, rfl⟩ : ∃ (p : Fin 16384) (q : Fin 2048), i = ix2 p q := ⟨i 0, i 1, eq_ix2 i⟩
  rw [val_main_v7_apply, val_main_v6_apply, val_main_v2_apply, val_main_v1_apply, val_main_v0_apply,
    val_main_v5_apply, val_main_v4_apply, val_main_v3_apply, bidx_eq]
  simp only [lidx_eq, ridx_eq]
  rfl

/-- The second layer's stage is the first layer's operations on the first layer's result. -/
theorem v15_eq (x0 : (⟨S16384x2048, .f32⟩ : BufTy).Contents (Elt Ideal)) (x1 x2 x3 x4 : (⟨S2048x1, .f32⟩ : BufTy).Contents (Elt Ideal)) :
    val_main_v15 (F := Ideal) x0 x1 x2 x3 x4 = val_main_v7 (F := Ideal) (val_main_v7 (F := Ideal) x0 x1 x2) x3 x4 := rfl

/-- And the third's on the second's. -/
theorem v23_eq (x0 : (⟨S16384x2048, .f32⟩ : BufTy).Contents (Elt Ideal)) (x1 x2 x3 x4 x5 x6 : (⟨S2048x1, .f32⟩ : BufTy).Contents (Elt Ideal)) :
    val_main_v23 (F := Ideal) x0 x1 x2 x3 x4 x5 x6 = val_main_v7 (F := Ideal) (val_main_v15 (F := Ideal) x0 x1 x2 x3 x4) x5 x6 := rfl

/-- The reference's result is the stack of three cross layers of its arguments. -/
theorem result_eq (x0 : (⟨S16384x2048, .f32⟩ : BufTy).Contents (Elt Ideal)) (x1 x2 x3 x4 x5 x6 : (⟨S2048x1, .f32⟩ : BufTy).Contents (Elt Ideal)) :
    val_main_v23 (F := Ideal) x0 x1 x2 x3 x4 x5 x6
      = stack (R := 16384) x0 (col x1) (col x2) (col x3) (col x4) (col x5) (col x6) := by
  rw [v23_eq, v15_eq, layer_eq, layer_eq, layer_eq]
  rfl

end Cert.Cross.Ref

end
-- ==== Proof.KernelLayer.lean ====
/-
  The kernel computes a cross layer on a block `y` of 512 rows, with the weight and the bias as
  [1, 2048] rows: the weight row broadcast over the rows and multiplied into `y`, the products summed
  along each row (`s[p] = Σ_k y[p,k] · w[0,k]`), `s` turned into a column and broadcast over the
  columns; then `y · s + b + y` with the bias row broadcast over the rows.  Read at row `p`, column
  `q` of the block this is `crossAt y (row w) (row b) p q`.  The body's one stored value is three
  such layers in turn.
-/
import proofs.«161878_j13322988552563_1_alg».proof.Proof.Gen.KernelIdeal.Skeleton
import proofs.«161878_j13322988552563_1_alg».proof.Proof.CrossSpec
import Idealize.ShloMosaic.Lib.Pipeline.Value
import Idealize.ShloMosaic.Lib.ValueLayout
import Idealize.ShloMosaic.PureOps.Ideal.Laws

noncomputable section

namespace Cert.Cross.Ker

open Idealize.ShloMosaic Idealize.ShloMosaic.ValueIdx Cert.KernelIdeal Cert.KernelIdeal.Gen Cert.Cross

section AnyF
variable {F : FTy → Type} [FloatOps F]

/-- The kernel's operations for one layer, on a block and the two loaded rows. -/
def kLayer (y : FVec F S512x2048 .f32) (wv bv : Vec F S1x2048 .f32) : FVec F S512x2048 .f32 :=
  addf (addf (mulf y (broadcastTo S512x2048 (shapeCast S512x1 (multiReduction .add [1] S512
      (mulf y (broadcastTo S512x2048 (shapeCast S1x2048 wv shapeCasts_S1x2048_S1x2048) broadcasts_S1x2048_S512x2048))
      0x00000000#32 reduces_S512x2048_S512 (.inl rfl) rfl) shapeCasts_S512_S512x1) broadcasts_S512x1_S512x2048))
    (broadcastTo S512x2048 (shapeCast S1x2048 bv shapeCasts_S1x2048_S1x2048) broadcasts_S1x2048_S512x2048)) y

/-- The stored value is three layers, each on the result of the one before. -/
theorem pay_eq (v0 : Vec F S512x2048 .f32) (v1 v3 v14 v16 v27 v29 : Vec F S1x2048 .f32) :
    k0_pay1 v0 v1 v3 v14 v16 v27 v29 = kLayer (kLayer (kLayer v0 v1 v3) v14 v16) v27 v29 := rfl

end AnyF

/-- A loaded row, cast to its own shape and broadcast over the 512 rows, reads its entry at the column. -/
theorem rowBcast_apply (v : Vec Ideal S1x2048 .f32) (p : Fin 512) (q : Fin 2048) :
    broadcastTo S512x2048 (shapeCast S1x2048 v shapeCasts_S1x2048_S1x2048) broadcasts_S1x2048_S512x2048 (ix2 p q)
      = row v q :=
  (broadcastTo_1b_ab_apply _ broadcasts_S1x2048_S512x2048 p q).trans
    (congrFun (shapeCast_self v shapeCasts_S1x2048_S1x2048) _)

/-- A vector of 512 numbers, turned into a column and broadcast over the 2048 columns, reads its entry at the row. -/
theorem colBcast_apply (v : FVec Ideal S512 .f32) (p : Fin 512) (q : Fin 2048) :
    broadcastTo S512x2048 (shapeCast S512x1 v shapeCasts_S512_S512x1) broadcasts_S512x1_S512x2048 (ix2 p q)
      = v (ix1 p) := by
  refine (broadcastTo_apply _ broadcasts_S512x1_S512x2048 (ix2 p q) (ix2 p (0 : Fin 1)) fun a => ?_).trans ?_
  · match a with
    | ⟨0, _⟩ => show p.val = if (512 : Nat) = 1 then 0 else p.val; rw [if_neg (by decide)]
    | ⟨1, _⟩ => show 0 = if (1 : Nat) = 1 then 0 else q.val; rw [if_pos rfl]
  · exact shapeCast_apply v shapeCasts_S512_S512x1 (ix2 p (0 : Fin 1)) (ix1 p)
      (by rw [Shape.rowMajor_val_one, Shape.rowMajor_val_two]; show p.val = p.val * 1 + 0; omega)

/-- The sum along a row of the block, from the zero accumulator: the plain sum of the row's entries. -/
theorem rowSum_apply (src : FVec Ideal S512x2048 .f32) (p : Fin 512) :
    multiReduction (F := Ideal) .add [1] S512 src 0x00000000#32 reduces_S512x2048_S512 (.inl rfl) rfl (ix1 p)
      = ∑ k : Fin 2048, src (ix2 p k) := by
  refine (Ideal.multiReduction_add_single src 0x00000000#32 reduces_S512x2048_S512 (.inl rfl) rfl (ix1 p)).trans ?_
  refine Finset.sum_congr rfl fun k _ => congrArg src ?_
  funext a
  match a with
  | ⟨0, _⟩ => rfl
  | ⟨1, _⟩ => rfl

/-- The kernel's layer on a block, at row `p`, column `q`, is the cross layer of the block there. -/
theorem kLayer_apply (y : FVec Ideal S512x2048 .f32) (wv bv : Vec Ideal S1x2048 .f32) (p : Fin 512) (q : Fin 2048) :
    kLayer (F := Ideal) y wv bv (ix2 p q) = crossAt (R := 512) y (row wv) (row bv) p q := by
  unfold kLayer crossAt
  rw [addf_apply, addf_apply, mulf_apply, colBcast_apply, rowSum_apply, rowBcast_apply]
  refine congrArg (fun s => y (ix2 p q) * s + row bv q + y (ix2 p q)) ?_
  refine Finset.sum_congr rfl fun k _ => ?_
  rw [mulf_apply, rowBcast_apply]

/-- So the layer on a block IS the cross layer of the block. -/
theorem kLayer_eq (y : FVec Ideal S512x2048 .f32) (wv bv : Vec Ideal S1x2048 .f32) :
    kLayer (F := Ideal) y wv bv = crossLayer (R := 512) y (row wv) (row bv) := by
  funext i
  obtain ⟨p, q, rfl⟩ : ∃ (p : Fin 512) (q : Fin 2048), i = ix2 p q := ⟨i 0, i 1, eq_ix2 i⟩
  exact kLayer_apply y wv bv p q

/-- The stored value is the stack of three cross layers of the block, with the six loaded rows. -/
theorem pay_stack (v0 : Vec Ideal S512x2048 .f32) (v1 v3 v14 v16 v27 v29 : Vec Ideal S1x2048 .f32) :
    k0_pay1 (F := Ideal) v0 v1 v3 v14 v16 v27 v29
      = stack (R := 512) v0 (row v1) (row v3) (row v14) (row v16) (row v27) (row v29) := by
  rw [pay_eq, kLayer_eq, kLayer_eq, kLayer_eq]
  rfl

end Cert.Cross.Ker

end
-- ==== Proof.KernelArray.lean ====
/-
  From blocks to the array.  The grid has 32 points; point `t` stages rows `512·t … 512·t + 511` of the
  input (all 2048 columns) and the six weight and bias rows whole, and writes its 512 result rows back to
  the same rows of the output.  The weight and bias rows the kernel stages are the [2048, 1] argument
  columns reshaped to [1, 2048] before the call, so a row read at column `k` is the column at row `k`.
  Since a cross layer reads row `p` only for row `p`, what point `t` writes back is rows
  `512·t …` of the stack of three cross layers of the WHOLE input; the 32 row blocks tile the output,
  so the output array ends holding that stack.
-/
import proofs.«161878_j13322988552563_1_alg».proof.Proof.Gen.KernelIdeal.Value
import proofs.«161878_j13322988552563_1_alg».proof.Proof.KernelLayer
import Idealize.ShloMosaic.Lib.StableHlo.Run

set_option maxRecDepth 16384

noncomputable section

namespace Cert.Cross.Arr

open Idealize.ShloMosaic Idealize.ShloMosaic.TcCoe Idealize.ShloMosaic.ValueIdx Idealize.SL.Sem
open Cert.KernelIdeal Cert.KernelIdeal.Gen Cert.Cross
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- The input's block index is the output's on the rows and 0 on the columns; the output's row block index is
    below 32; the six weight and bias rows are staged whole at every point. -/
theorem idx_facts : ∀ t : Fin cfg0.N,
    win0_0.index t (0 : Fin 2) = win0_7.index t (0 : Fin 2) ∧ win0_0.index t (1 : Fin 2) = 0
    ∧ win0_7.index t (1 : Fin 2) = 0 ∧ win0_7.index t (0 : Fin 2) < 32
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every row block of the output is some point's. -/
theorem idx_onto : ∀ q : Fin 32, ∃ t : Fin cfg0.N, win0_7.index t (0 : Fin 2) = q.val :=
  (by decide +kernel : ∀ q : Fin 32, ∃ t : Fin grid0.N, win0_7.index t (0 : Fin 2) = q.val)

/-- Row `p` of point `t`'s block is row `512 · (t's row block) + p` of the array. -/
def blkRow (t : Fin cfg0.N) (p : Fin 512) : Fin 16384 :=
  ⟨win0_7.index t (0 : Fin 2) * 512 + p.val, by have := (idx_facts t).2.2.2.1; have := p.isLt; omega⟩

/-! ## The reshaped weight and bias rows -/

/-- A [2048, 1] column reshaped to a [1, 2048] row, read as a row, is the column. -/
theorem row_reshape (w : S2048x1.Idx → EReal) :
    row (shapeCast S1x2048 w shapeCasts_S2048x1_S1x2048) = col w := by
  funext k
  exact shapeCast_apply w shapeCasts_S2048x1_S1x2048 (ix2 (0 : Fin 1) k) (ix2 k (0 : Fin 1))
    (by rw [Shape.rowMajor_val_two, Shape.rowMajor_val_two]; show k.val * 1 + 0 = 0 * 2048 + k.val; omega)

theorem V_v0 (c : Dev nD) : (V m c main_v0 : S1x2048.Idx → EReal)
    = shapeCast S1x2048 (m ((c : Thread nD τ).loc main_arg1)) shapeCasts_S2048x1_S1x2048 := by
  dsimp only [Gen.V, Gen.hostOps0]; after_results; rfl
theorem V_v1 (c : Dev nD) : (V m c main_v1 : S1x2048.Idx → EReal)
    = shapeCast S1x2048 (m ((c : Thread nD τ).loc main_arg2)) shapeCasts_S2048x1_S1x2048 := by
  dsimp only [Gen.V, Gen.hostOps0]; after_results; rfl
theorem V_v2 (c : Dev nD) : (V m c main_v2 : S1x2048.Idx → EReal)
    = shapeCast S1x2048 (m ((c : Thread nD τ).loc main_arg3)) shapeCasts_S2048x1_S1x2048 := by
  dsimp only [Gen.V, Gen.hostOps0]; after_results; rfl
theorem V_v3 (c : Dev nD) : (V m c main_v3 : S1x2048.Idx → EReal)
    = shapeCast S1x2048 (m ((c : Thread nD τ).loc main_arg4)) shapeCasts_S2048x1_S1x2048 := by
  dsimp only [Gen.V, Gen.hostOps0]; after_results; rfl
theorem V_v4 (c : Dev nD) : (V m c main_v4 : S1x2048.Idx → EReal)
    = shapeCast S1x2048 (m ((c : Thread nD τ).loc main_arg5)) shapeCasts_S2048x1_S1x2048 := by
  dsimp only [Gen.V, Gen.hostOps0]; after_results; rfl
theorem V_v5 (c : Dev nD) : (V m c main_v5 : S1x2048.Idx → EReal)
    = shapeCast S1x2048 (m ((c : Thread nD τ).loc main_arg6)) shapeCasts_S2048x1_S1x2048 := by
  dsimp only [Gen.V, Gen.hostOps0]; after_results; rfl

/-! ## The blocks at a point -/

/-- The input's block at point `t` is the rows `blkRow t` of the input. -/
theorem xblk (c : Dev nD) (t : Fin cfg0.N) :
    (iblk m c 0 t : Mat 512 → EReal) = rowsOf (blkRow t) (m ((c : Thread nD τ).loc main_arg0)) := by
  rw [← V_main_arg0 m c]
  funext y
  show V m c main_arg0 (((cfg0.win 0).blk t).view.emb y) = V m c main_arg0 (ix2 (blkRow t (y 0)) (y 1))
  obtain ⟨e0, e1, -⟩ := idx_facts t
  refine congrArg _ (funext fun a => Fin.ext ?_)
  match a with
  | ⟨0, _⟩ => show win0_0.index t (0 : Fin 2) * 512 + 1 * (y 0).val = win0_7.index t (0 : Fin 2) * 512 + (y 0).val; omega
  | ⟨1, _⟩ => show win0_0.index t (1 : Fin 2) * 2048 + 1 * (y 1).val = (y 1).val; omega

theorem wblk1 (c : Dev nD) (t : Fin cfg0.N) : row (iblk m c 1 t) = col (m ((c : Thread nD τ).loc main_arg1)) := by
  rw [← row_reshape, ← V_v0 m c]
  funext k
  show V m c main_v0 (((cfg0.win 1).blk t).view.emb (ix2 (0 : Fin 1) k)) = V m c main_v0 (ix2 (0 : Fin 1) k)
  obtain ⟨-, -, -, -, e0, e1, -⟩ := idx_facts t
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega
theorem wblk2 (c : Dev nD) (t : Fin cfg0.N) : row (iblk m c 2 t) = col (m ((c : Thread nD τ).loc main_arg2)) := by
  rw [← row_reshape, ← V_v1 m c]
  funext k
  show V m c main_v1 (((cfg0.win 2).blk t).view.emb (ix2 (0 : Fin 1) k)) = V m c main_v1 (ix2 (0 : Fin 1) k)
  obtain ⟨-, -, -, -, -, -, e0, e1, -⟩ := idx_facts t
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega
theorem wblk3 (c : Dev nD) (t : Fin cfg0.N) : row (iblk m c 3 t) = col (m ((c : Thread nD τ).loc main_arg3)) := by
  rw [← row_reshape, ← V_v2 m c]
  funext k
  show V m c main_v2 (((cfg0.win 3).blk t).view.emb (ix2 (0 : Fin 1) k)) = V m c main_v2 (ix2 (0 : Fin 1) k)
  obtain ⟨-, -, -, -, -, -, -, -, e0, e1, -⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * k.val = k.val; omega
theorem wblk4 (c : Dev nD) (t : Fin cfg0.N) : row (iblk m c 4 t) = col (m ((c : Thread nD τ).loc main_arg4)) := by
  rw [← row_reshape, ← V_v3 m c]
  funext k
  show V m c main_v3 (((cfg0.win 4).blk t).view.emb (ix2 (0 : Fin 1) k)) = V m c main_v3 (ix2 (0 : Fin 1) k)
  obtain ⟨-, -, -, -, -, -, -, -, -, -, e0, e1, -⟩ := idx_facts t
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * k.val = k.val; omega
theorem wblk5 (c : Dev nD) (t : Fin cfg0.N) : row (iblk m c 5 t) = col (m ((c : Thread nD τ).loc main_arg5)) := by
  rw [← row_reshape, ← V_v4 m c]
  funext k
  show V m c main_v4 (((cfg0.win 5).blk t).view.emb (ix2 (0 : Fin 1) k)) = V m c main_v4 (ix2 (0 : Fin 1) k)
  obtain ⟨-, -, -, -, -, -, -, -, -, -, -, -, e0, e1, -⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 2048 + 1 * k.val = k.val; omega
theorem wblk6 (c : Dev nD) (t : Fin cfg0.N) : row (iblk m c 6 t) = col (m ((c : Thread nD τ).loc main_arg6)) := by
  rw [← row_reshape, ← V_v5 m c]
  funext k
  show V m c main_v5 (((cfg0.win 6).blk t).view.emb (ix2 (0 : Fin 1) k)) = V m c main_v5 (ix2 (0 : Fin 1) k)
  obtain ⟨-, -, -, -, -, -, -, -, -, -, -, -, -, -, e0, e1⟩ := idx_facts t
  refine congrArg _ (funext fun a => Fin.ext ?_)
  match a with
  | ⟨0, _⟩ => show win0_6.index t (0 : Fin 2) * 1 + 1 * 0 = 0; omega
  | ⟨1, _⟩ => show win0_6.index t (1 : Fin 2) * 2048 + 1 * k.val = k.val; omega

/-! ## The output array -/

/-- The stack of three cross layers of the argument arrays on core `c`. -/
def result (c : Dev nD) : Mat 16384 → EReal :=
  stack (m ((c : Thread nD τ).loc main_arg0))
    (col (m ((c : Thread nD τ).loc main_arg1))) (col (m ((c : Thread nD τ).loc main_arg2)))
    (col (m ((c : Thread nD τ).loc main_arg3))) (col (m ((c : Thread nD τ).loc main_arg4)))
    (col (m ((c : Thread nD τ).loc main_arg5))) (col (m ((c : Thread nD τ).loc main_arg6)))

/-- What point `t` writes back is its row block of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S512x2048) hz, View.ld_unit_zero (S := S1x2048) hz]
  rw [Ker.pay_stack, xblk, wblk1, wblk2, wblk3, wblk4, wblk5, wblk6, stack_rows]
  obtain ⟨-, -, e2, -⟩ := idx_facts t
  funext j
  show result m c (ix2 (blkRow t (j 0)) (j 1)) = result m c (((cfg0.win 7).blk t).view.emb j)
  refine congrArg _ (funext fun a => Fin.ext ?_)
  match a with
  | ⟨0, _⟩ => show win0_7.index t (0 : Fin 2) * 512 + (j 0).val = win0_7.index t (0 : Fin 2) * 512 + 1 * (j 0).val; omega
  | ⟨1, _⟩ => show (j 1).val = win0_7.index t (1 : Fin 2) * 2048 + 1 * (j 1).val; omega

/-- An index is in point `t`'s block iff each coordinate is in the block's range. -/
theorem mem_blk (t : Fin cfg0.N) (i : S16384x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v6).slice (win0_7.rect t)).set ↔ _
  rw [View.set_slice_whole, Rect.mem_set_unit]
  exact Iff.rfl

/-- Row `r` of the output is in the block of the point whose row block index is `r / 512`. -/
theorem cover (i : S16384x2048.Idx) :
    ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨t, ht⟩ := idx_onto ⟨(i 0).val / 512, by omega⟩
  have ht' : win0_7.index t (0 : Fin 2) = (i 0).val / 512 := ht
  obtain ⟨-, -, e2, -⟩ := idx_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 2048 ≤ (i 1).val ∧ (i 1).val < win0_7.index t (1 : Fin 2) * 2048 + 2048; omega

/-- The output array after the run is the stack of three cross layers of the arguments. -/
theorem final (c : Dev nD) : (dats m 0 c).arrAt 7 cfg0.N = result m c :=
  (dats m 0 c).arrAt_eq_of_cover 7 (result m c) (fun t _ => flushed_eq m c t) cover

/-- The kernel's run, with its output named. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.Cross.Arr

end
-- ==== Proof.lean ====
/-
  The kernel fuses a stack of three cross layers,  y ↦ y · (yᵀw) + b + y  row by row, over a
  [16384, 2048] input with [2048, 1] weight and bias columns; the reference applies the same three layers
  with a matrix product for the per-row scalar `yᵀw`.

  Over the extended reals both programs end with the same array: at row `p`, column `q` each layer is
      y[p,q] · (Σ_k y[p,k] · w[k]) + b[q] + y[p,q],
  the kernel's lane sum from a zero accumulator and the reference's product with a one-column matrix
  being the same finite sum of the same products, added to the bias and to `y` in the same order.  No
  algebraic law is needed beyond reading both sides at an index, so the finiteness of the inputs is
  not used.  The kernel works on blocks of 512 rows; a layer reads row `p` only for row `p`, so each
  block of the result is the block of the whole-array stack, and the 32 blocks tile the output.

  The modules: `CrossSpec` (the layer and the stack as functions, and that they commute with a selection of
  rows), `RefLayer` (the reference's stages are the stack), `KernelLayer` (the kernel body's stored value is
  the stack of its block), `KernelArray` (from the blocks to the output array, and the kernel's run).
-/
import proofs.«161878_j13322988552563_1_alg».proof.Defs
import proofs.«161878_j13322988552563_1_alg».proof.Proof.Gen.Kernel
import proofs.«161878_j13322988552563_1_alg».proof.Proof.Gen.Kernel.Skeleton
import proofs.«161878_j13322988552563_1_alg».proof.Proof.Gen.Kernel.Launch
import proofs.«161878_j13322988552563_1_alg».proof.Proof.Gen.Kernel.Points
import proofs.«161878_j13322988552563_1_alg».proof.Proof.Gen.Kernel.Frame
import proofs.«161878_j13322988552563_1_alg».proof.Proof.Gen.KernelIdeal
import proofs.«161878_j13322988552563_1_alg».proof.Proof.Gen.KernelIdeal.Skeleton
import proofs.«161878_j13322988552563_1_alg».proof.Proof.Gen.KernelIdeal.Launch
import proofs.«161878_j13322988552563_1_alg».proof.Proof.Gen.KernelIdeal.Points
import proofs.«161878_j13322988552563_1_alg».proof.Proof.Gen.KernelIdeal.Frame
import proofs.«161878_j13322988552563_1_alg».proof.Proof.Gen.ReferenceIdeal
import proofs.«161878_j13322988552563_1_alg».proof.Proof.Gen.Pre_finite_inputs
import proofs.«161878_j13322988552563_1_alg».proof.Proof.Gen.KernelIdeal.Value
import proofs.«161878_j13322988552563_1_alg».proof.Proof.Gen.ReferenceIdeal.Run
import proofs.«161878_j13322988552563_1_alg».proof.Proof.Gen.ReferenceIdeal.Read
import proofs.«161878_j13322988552563_1_alg».proof.Proof.RefLayer
import proofs.«161878_j13322988552563_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the stack of three cross layers of the arguments: the kernel's output array
    (`Cert.Cross.Arr.run`) and the reference's last stage (`Cert.Cross.Ref.result_eq`), at arguments that agree. -/
theorem algebraic : Cert.algebraic_KernelIdeal_ReferenceIdeal := by
  intro m ρ m' ρ' _ hagree
  refine ⟨fun c => Cert.Cross.Arr.result m c, Cert.Cross.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Cross.Ref.result_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
